-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩
abbrev S8192x4096 : Shape := ⟨2, ![8192, 4096]⟩
abbrev S512x1024 : Shape := ⟨2, ![512, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 24
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S1x4096, .f32⟩
  | .hbm, ⟨14, _⟩ => ⟨S4x2048x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1, .f32⟩
  | .local _ .vmem, ⟨6, _⟩ => ⟨S1024x1, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S1x4096 : S4096x1.ShapeCasts S1x4096
  reducesTo_S4x2048x4096_S_d0_1_2 : S4x2048x4096.ReducesTo [0, 1, 2] S_
  shapeCasts_S_S1x1 : S_.ShapeCasts S1x1
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1024 : S1x1.Broadcasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x4096.size a
  hwx0_6 : ∀ i : grid0.Coords, EltTy.bits .f32 = 32 ∨ (Rect.block (s := S8192x4096) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4x2048x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x2048x4096, .f32⟩
  | .hbm, ⟨38, _⟩ => ⟨S4x2048x4096, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S4x2048x4096, .f32⟩
  | .hbm, ⟨44, _⟩ => ⟨S4x2048x4096, .f32⟩
  | .hbm, ⟨45, _⟩ => ⟨S1x1x4096, .f32⟩
  | .hbm, ⟨46, _⟩ => ⟨S4x2048x4096, .f32⟩
  | .hbm, ⟨47, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_cst_7 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4x2048x4096_S_d0_1_2 : S4x2048x4096.ReducesTo [0, 1, 2] S_
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.Quant.lean ====
/-
  The arithmetic the two programs share, on the extended reals.

  QUANTIZING a value y by a scale s: divide, round to the nearest integer (ties to even), clip to [-128, 127].
  Whatever the quotient is (the scale may be zero and the quotient infinite), the clipped value is a real number
  between -128 and 127: the upper bound 127 caps it, and the lower bound -128 sits under the inner maximum.

  THE LAW. One output entry is built from the quantized activations a_k and the quantized weights b_k of one row and
  one column, an activation scale s, the column's weight scale u and a bias β. One program sums the products a_k · b_k
  first and scales the sum, ((Σ_k a_k b_k) · s) · u + β; the other scales every factor first, Σ_k (a_k s)(b_k u) + β.
  With a_k, b_k, s, u real numbers the two are equal by distributivity; β may be any extended real, since it is added
  to equal things.

  THE BLOCKS. The first program walks the contraction axis of 4096 columns in 4 blocks of 1024, keeping a running total
  that starts at zero; after the fourth block the total is the sum over all 4096 columns.
-/
import Idealize.ShloMosaic.PureOps.Ideal
import Idealize.ShloMosaic.PureOps.Ideal.Laws
import proofs.«150163_j41394894798994_1_alg».proof.Proof.LibBlockSum

noncomputable section

namespace Cert.Proof.Quant

open Idealize.ShloMosaic
open scoped BigOperators

/-! ## The clip bounds -/

/-- The upper clip bound's pattern denotes the real 127. -/
theorem hi_eq : Ideal.ofBits .f32 0x42FE0000#32 = ((127 : ℝ) : EReal) := by
  simp [Ideal.ofBits, Ideal.ieee, -EReal.coe_mul]; norm_num

/-- The lower clip bound's pattern denotes the real -128. -/
theorem lo_eq : Ideal.ofBits .f32 0xC3000000#32 = ((-128 : ℝ) : EReal) := by
  simp [Ideal.ofBits, Ideal.ieee, -EReal.coe_mul]; norm_num

/-! ## Quantizing -/

/-- y quantized by the scale s: the quotient rounded to the nearest integer, ties to even, clipped to [-128, 127]. -/
def q (y s : EReal) : EReal :=
  min (Ideal.ofBits .f32 0x42FE0000#32)
    (max (Ideal.ofBits .f32 0xC3000000#32) (Ideal.liftRound Ideal.roundHalfEven (Ideal.div y s)))

/-- A clipped value is a real number, whatever was clipped. -/
theorem clip_real (z : EReal) :
    ∃ r : ℝ, min (Ideal.ofBits .f32 0x42FE0000#32) (max (Ideal.ofBits .f32 0xC3000000#32) z) = (r : EReal) := by
  rw [hi_eq, lo_eq]
  have h1 : min ((127 : ℝ) : EReal) (max ((-128 : ℝ) : EReal) z) ≠ ⊤ :=
    ne_top_of_le_ne_top (EReal.coe_ne_top _) (min_le_left _ _)
  have h2 : min ((127 : ℝ) : EReal) (max ((-128 : ℝ) : EReal) z) ≠ ⊥ :=
    ne_bot_of_le_ne_bot (EReal.coe_ne_bot (-128))
      (le_min (by exact_mod_cast (by norm_num : (-128 : ℝ) ≤ 127)) (le_max_left _ _))
  exact ⟨_, (EReal.coe_toReal h1 h2).symm⟩

/-- A quantized value is a real number, whatever the value and the scale. -/
theorem q_real (y s : EReal) : ∃ r : ℝ, q y s = (r : EReal) := clip_real _

/-! ## Sum first and scale, or scale first and sum -/

/-- A finite sum of reals, read in the extended reals, is the sum of the summands read there. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Scaling the sum of products equals summing the products of the scaled factors, when every factor is real. -/
theorem scale_sum {n : ℕ} (a b : Fin n → EReal) (ha : ∀ k, ∃ r : ℝ, a k = (r : EReal))
    (hb : ∀ k, ∃ r : ℝ, b k = (r : EReal)) (s u β : EReal) (hs : ∃ r : ℝ, s = (r : EReal))
    (hu : ∃ r : ℝ, u = (r : EReal)) :
    ((∑ k, a k * b k) * s) * u + β = (∑ k, (a k * s) * (b k * u)) + β := by
  choose ar har using ha
  choose br hbr using hb
  obtain ⟨sr, rfl⟩ := hs
  obtain ⟨ur, rfl⟩ := hu
  congr 1
  simp only [har, hbr, ← EReal.coe_mul, ← coe_sum]
  exact congrArg _ (by rw [Finset.sum_mul, Finset.sum_mul]; exact Finset.sum_congr rfl fun k _ => by ring)

/-! ## Four blocks of 1024 columns -/

/-- 4 blocks of 1024 columns are the 4096 columns. -/
theorem cols : 4 * 1024 = 4096 := by norm_num

/-- Column r of block t is a column. -/
theorem col_lt {t r : ℕ} (ht : t < 4) (hr : r < 1024) : 1024 * t + r < 4096 := by omega

/-- The running total over the contraction axis after t blocks. -/
def acc (f : Fin 4096 → EReal) (t : ℕ) : EReal := Cert.LibBlockSum.blockAcc cols f t

/-- It starts at zero. -/
theorem acc_zero (f : Fin 4096 → EReal) : acc f 0 = 0 := rfl

/-- Block t < 4 adds the sum over its 1024 columns. -/
theorem acc_succ (f : Fin 4096 → EReal) {t : ℕ} (h : t < 4) :
    acc f (t + 1) = acc f t + ∑ r : Fin 1024, f ⟨1024 * t + r.val, col_lt h r.isLt⟩ :=
  Cert.LibBlockSum.blockAcc_succ' cols f h

/-- After the fourth block it is the sum over all 4096 columns. -/
theorem acc_last (f : Fin 4096 → EReal) : acc f 4 = ∑ k, f k :=
  Cert.LibBlockSum.blockAcc_last cols f

end Cert.Proof.Quant

end
-- ==== Proof.Spec.lean ====
/-
  What both programs compute, entry by entry.

  Inputs: activations x[a, s, k] (4 x 2048 x 4096), weights W[n, k] (4096 x 4096), bias b[n].
  The activation scale is one number for the whole tensor, (max |x|) / 127; row n of the weights has its own scale,
  max((max_k |W[n, k]|) / 127, 1e-5). Both programs compute the two scales by the same host operations, so they are
  named here once, as those operations' values, and never opened except to see that they are real numbers.

  With xq = q(x[a, s, k], xs) and wq = q(W[n, k], ws n) the quantized entries:
    * summing first:  out[a, s, n] = ((Σ_k xq · wq) · xs) · ws n + b[n];
    * scaling first:  out[a, s, n] = Σ_k (xq · xs) · (wq · ws n) + b[n].
  The two agree when xs and every ws n are real numbers (the quantized entries always are).
-/
import proofs.«150163_j41394894798994_1_alg».proof.Proof.Gen.ReferenceIdeal.Read
import proofs.«150163_j41394894798994_1_alg».proof.Proof.Quant
import Idealize.ShloMosaic.Lib.ValueIdx

noncomputable section

namespace Cert.Proof.Spec

open Idealize.ShloMosaic Idealize.ShloMosaic.ValueIdx Cert.Proof.Quant
open scoped BigOperators

/-- Activations, weights, bias as arrays of extended reals. -/
abbrev XArr : Type := (⟨3, ![4, 2048, 4096]⟩ : Shape).Idx → EReal
abbrev WArr : Type := (⟨2, ![4096, 4096]⟩ : Shape).Idx → EReal
abbrev BArr : Type := (⟨1, ![4096]⟩ : Shape).Idx → EReal

/-- The activation scale: (max |x|) / 127, as the host operations compute it. -/
def xs (x : XArr) : EReal := Cert.ReferenceIdeal.Read.val_main_v15 (F := Ideal) x ix0

/-- Row n's weight scale: max((max_k |W[n, k]|) / 127, 1e-5), as the host operations compute it. -/
def ws (W : WArr) (n : Fin 4096) : EReal := Cert.ReferenceIdeal.Read.val_main_v6 (F := Ideal) W (ix2 n (0 : Fin 1))

/-- Summing the products of the quantized entries first, then scaling, then the bias. -/
def sumFirst (x : XArr) (W : WArr) (b : BArr) : XArr := fun i =>
  ((∑ k : Fin 4096, q (x (ix3 (i 0) (i 1) k)) (xs x) * q (W (ix2 (i 2) k)) (ws W (i 2))) * xs x) * ws W (i 2)
    + b (ix1 (i 2))

/-- Scaling every quantized entry first, then summing the products, then the bias. -/
def scaleFirst (x : XArr) (W : WArr) (b : BArr) : XArr := fun i =>
  (∑ k : Fin 4096, (q (x (ix3 (i 0) (i 1) k)) (xs x) * xs x) * (q (W (ix2 (i 2) k)) (ws W (i 2)) * ws W (i 2)))
    + b (ix1 (i 2))

theorem sumFirst_apply (x : XArr) (W : WArr) (b : BArr) (a : Fin 4) (s : Fin 2048) (n : Fin 4096) :
    sumFirst x W b (ix3 a s n)
      = ((∑ k : Fin 4096, q (x (ix3 a s k)) (xs x) * q (W (ix2 n k)) (ws W n)) * xs x) * ws W n + b (ix1 n) := rfl

theorem scaleFirst_apply (x : XArr) (W : WArr) (b : BArr) (a : Fin 4) (s : Fin 2048) (n : Fin 4096) :
    scaleFirst x W b (ix3 a s n)
      = (∑ k : Fin 4096, (q (x (ix3 a s k)) (xs x) * xs x) * (q (W (ix2 n k)) (ws W n) * ws W n)) + b (ix1 n) := rfl

/-- With real scales the two orders give the same array. -/
theorem sumFirst_eq_scaleFirst (x : XArr) (W : WArr) (b : BArr) (hxs : ∃ r : ℝ, xs x = (r : EReal))
    (hws : ∀ n, ∃ r : ℝ, ws W n = (r : EReal)) : sumFirst x W b = scaleFirst x W b := by
  funext i
  exact scale_sum _ _ (fun k => q_real _ _) (fun k => q_real _ _) _ _ _ hxs (hws _)

end Cert.Proof.Spec

end
-- ==== Proof.KHost.lean ====
/-
  What the kernel region finds in its six input arrays, read at one entry.

  Before the region the host computes the two scales (the same operations as in the reference), views the activations
  x[a, s, k] as a matrix of 8192 rows (row 2048·a + s is (a, s)), the activation scale as a 1 x 1 matrix, the weight
  scales both as a 4096 x 1 column and as a 1 x 4096 row, and the bias as a 1 x 4096 row. The weights are passed as they are.
-/
import proofs.«150163_j41394894798994_1_alg».proof.Proof.Gen.KernelIdeal.Frame
import proofs.«150163_j41394894798994_1_alg».proof.Proof.Spec
import Idealize.ShloMosaic.Lib.Pipeline.Value
import Idealize.ShloMosaic.Lib.StableHlo.Run

set_option maxRecDepth 16384

noncomputable section

namespace Cert.Proof.KHost

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen

variable (m : (ℓ : Loc nD τ sig) → Buf (Elt Ideal) ℓ)

/-- The three inputs on core c, as arrays of extended reals. -/
abbrev xin (c : Dev nD) : Cert.Proof.Spec.XArr := m ((c : Thread nD τ).loc main_arg0)
abbrev win (c : Dev nD) : Cert.Proof.Spec.WArr := m ((c : Thread nD τ).loc main_arg1)
abbrev bin (c : Dev nD) : Cert.Proof.Spec.BArr := m ((c : Thread nD τ).loc main_arg2)

/-! ## The arrays as the host operations leave them -/

theorem V_x2 (c : Dev nD) : (V m c main_v12 : S8192x4096.Idx → EReal)
    = shapeCast S8192x4096 (xin m c) shapeCasts_S4x2048x4096_S8192x4096 := by
  show StableHlo.after hostOps0 (fun b => m (c, b)) (Proc.devRef .tc main_v12) = _
  after_results
  rfl

theorem V_xs (c : Dev nD) : (V m c main_v11 : S1x1.Idx → EReal)
    = shapeCast S1x1 (Cert.ReferenceIdeal.Read.val_main_v15 (F := Ideal) (xin m c)) shapeCasts_S_S1x1 := by
  show StableHlo.after hostOps0 (fun b => m (c, b)) (Proc.devRef .tc main_v11) = _
  after_results
  rfl

theorem V_wcol (c : Dev nD) : (V m c main_v6 : S4096x1.Idx → EReal)
    = Cert.ReferenceIdeal.Read.val_main_v6 (F := Ideal) (win m c) := by
  show StableHlo.after hostOps0 (fun b => m (c, b)) (Proc.devRef .tc main_v6) = _
  after_results
  rfl

theorem V_wrow (c : Dev nD) : (V m c main_v7 : S1x4096.Idx → EReal)
    = shapeCast S1x4096 (Cert.ReferenceIdeal.Read.val_main_v6 (F := Ideal) (win m c)) shapeCasts_S4096x1_S1x4096 := by
  show StableHlo.after hostOps0 (fun b => m (c, b)) (Proc.devRef .tc main_v7) = _
  after_results
  rfl

theorem V_brow (c : Dev nD) : (V m c main_v13 : S1x4096.Idx → EReal)
    = shapeCast S1x4096 (bin m c) shapeCasts_S4096_S1x4096 := by
  show StableHlo.after hostOps0 (fun b => m (c, b)) (Proc.devRef .tc main_v13) = _
  after_results
  rfl

/-! ## Read at an entry -/

/-- Row 2048·a + s of the activation matrix is (a, s). -/
theorem x2_apply (c : Dev nD) (a : Fin 4) (s : Fin 2048) (k : Fin 4096) (row : Fin 8192)
    (hrow : row.val = 2048 * a.val + s.val) :
    (V m c main_v12 : S8192x4096.Idx → EReal) (ix2 row k) = xin m c (ix3 a s k) :=
  (congrFun (V_x2 m c) (ix2 row k)).trans
    (shapeCast_apply (xin m c) shapeCasts_S4x2048x4096_S8192x4096 (ix2 row k) (ix3 a s k) (by
      rw [Shape.rowMajor_val_three, Shape.rowMajor_val_two]
      show (a.val * 2048 + s.val) * 4096 + k.val = row.val * 4096 + k.val
      rw [hrow]; ring))

/-- The 1 x 1 matrix holds the activation scale. -/
theorem xs_apply (c : Dev nD) :
    (V m c main_v11 : S1x1.Idx → EReal) (ix2 (0 : Fin 1) (0 : Fin 1)) = Cert.Proof.Spec.xs (xin m c) :=
  (congrFun (V_xs m c) _).trans
    (shapeCast_apply _ shapeCasts_S_S1x1 (ix2 (0 : Fin 1) (0 : Fin 1)) ix0 (by
      rw [Shape.rowMajor_val_two]
      have h := (S_.rowMajor ix0).isLt
      have h1 : S_.numel = 1 := by decide
      show (S_.rowMajor ix0).val = 0 * 1 + 0
      omega))

/-- Entry (n, 0) of the column is row n's weight scale. -/
theorem wcol_apply (c : Dev nD) (n : Fin 4096) :
    (V m c main_v6 : S4096x1.Idx → EReal) (ix2 n (0 : Fin 1)) = Cert.Proof.Spec.ws (win m c) n :=
  congrFun (V_wcol m c) _

/-- Entry (0, n) of the row is row n's weight scale. -/
theorem wrow_apply (c : Dev nD) (n : Fin 4096) :
    (V m c main_v7 : S1x4096.Idx → EReal) (ix2 (0 : Fin 1) n) = Cert.Proof.Spec.ws (win m c) n :=
  (congrFun (V_wrow m c) _).trans
    (shapeCast_apply _ shapeCasts_S4096x1_S1x4096 (ix2 (0 : Fin 1) n) (ix2 n (0 : Fin 1)) (by
      rw [Shape.rowMajor_val_two, Shape.rowMajor_val_two]
      show n.val * 1 + 0 = 0 * 4096 + n.val
      omega))

/-- Entry (0, n) of the bias row is b[n]. -/
theorem brow_apply (c : Dev nD) (n : Fin 4096) :
    (V m c main_v13 : S1x4096.Idx → EReal) (ix2 (0 : Fin 1) n) = bin m c (ix1 n) :=
  (congrFun (V_brow m c) _).trans
    (shapeCast_apply _ shapeCasts_S4096_S1x4096 (ix2 (0 : Fin 1) n) (ix1 n) (by
      rw [Shape.rowMajor_val_two, Shape.rowMajor_val_one]
      show n.val = 0 * 4096 + n.val
      omega))

/-- The weights are passed as they are. -/
theorem w_apply (c : Dev nD) : (V m c main_arg1 : S4096x4096.Idx → EReal) = win m c := V_main_arg1 m c

end Cert.Proof.KHost

end
-- ==== Proof.KBlocks.lean ====
/-
  The blocks the kernel body is handed at a grid point, read at one entry.

  The grid has 16 x 4 x 4 points; point number t is (i, j, k) with i = t / 16, j = (t / 4) % 4, k = t % 4.
  At (i, j, k) the body sees rows 512·i … 512·i + 511 and columns 1024·k … 1024·k + 1023 of the activation matrix,
  rows 1024·j … and columns 1024·k … of the weights, the activation scale, the weight scales of rows 1024·j … (as a
  column and as a row) and the bias entries 1024·j …; it writes rows 512·i …, columns 1024·j … of the output.
-/
import proofs.«150163_j41394894798994_1_alg».proof.Proof.KHost
import Idealize.ShloMosaic.Lib.Pipeline.Value
import Idealize.ShloMosaic.Lib.ValueIdx

set_option maxRecDepth 16384

noncomputable section

namespace Cert.Proof.KBlocks

open Idealize.ShloMosaic Idealize.ShloMosaic.TcCoe Idealize.ShloMosaic.Tactic Idealize.SL.Sem
open Idealize.ShloMosaic.ValueIdx
open Cert.KernelIdeal Cert.KernelIdeal.Gen Cert.Proof.KHost Cert.Proof.Spec

variable (m : (ℓ : Loc nD τ sig) → Buf (Elt Ideal) ℓ)

/-! ## The index maps, decided over the grid -/

theorem idx_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_w : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx_s : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_wc : ∀ t : Fin cfg0.N, win0_3.index t (0 : Fin 2) = t.val / 4 % 4 ∧ win0_3.index t (1 : Fin 2) = 0 :=
  (by decide +kernel : ∀ t : Fin grid0.N, win0_3.index t (0 : Fin 2) = t.val / 4 % 4 ∧ win0_3.index t (1 : Fin 2) = 0)
theorem idx_wr : ∀ t : Fin cfg0.N, win0_4.index t (0 : Fin 2) = 0 ∧ win0_4.index t (1 : Fin 2) = t.val / 4 % 4 :=
  (by decide +kernel : ∀ t : Fin grid0.N, win0_4.index t (0 : Fin 2) = 0 ∧ win0_4.index t (1 : Fin 2) = t.val / 4 % 4)
theorem idx_b : ∀ t : Fin cfg0.N, win0_5.index t (0 : Fin 2) = 0 ∧ win0_5.index t (1 : Fin 2) = t.val / 4 % 4 :=
  (by decide +kernel : ∀ t : Fin grid0.N, win0_5.index t (0 : Fin 2) = 0 ∧ win0_5.index t (1 : Fin 2) = t.val / 4 % 4)
theorem idx_o : ∀ t : Fin cfg0.N, win0_6.index t (0 : Fin 2) = t.val / 16 ∧ win0_6.index t (1 : Fin 2) = t.val / 4 % 4 :=
  (by decide +kernel : ∀ t : Fin grid0.N, win0_6.index t (0 : Fin 2) = t.val / 16 ∧ win0_6.index t (1 : Fin 2) = t.val / 4 % 4)

/-- A point's number is below 256. -/
theorem t_lt (t : Fin cfg0.N) : t.val < 256 := lt_of_lt_of_eq t.isLt (show cfg0.N = 256 from N_0)

/-! ## Rows and columns -/

/-- Row r of the point's row block, as a row of the 8192-row matrix. -/
def rowOf (t : Fin cfg0.N) (r : Fin 512) : Fin 8192 := ⟨512 * (t.val / 16) + r.val, by have := t_lt t; omega⟩
/-- Column c of the point's column block, as one of the 4096 output columns (weight rows). -/
def colOf (t : Fin cfg0.N) (c : Fin 1024) : Fin 4096 := ⟨1024 * (t.val / 4 % 4) + c.val, by omega⟩
/-- Column kk of contraction block kb. -/
abbrev kcol (kb : ℕ) (h : kb < 4) (kk : Fin 1024) : Fin 4096 := ⟨1024 * kb + kk.val, Cert.Proof.Quant.col_lt h kk.isLt⟩
/-- Matrix row 2048·a + s is batch a, position s. -/
def aOf (row : Fin 8192) : Fin 4 := ⟨row.val / 2048, by have := row.isLt; omega⟩
def sOf (row : Fin 8192) : Fin 2048 := ⟨row.val % 2048, Nat.mod_lt _ (by norm_num)⟩

theorem rowOf_val (t : Fin cfg0.N) (r : Fin 512) : (rowOf t r).val = 512 * (t.val / 16) + r.val := rfl
theorem colOf_val (t : Fin cfg0.N) (c : Fin 1024) : (colOf t c).val = 1024 * (t.val / 4 % 4) + c.val := rfl
theorem row_split (row : Fin 8192) : row.val = 2048 * (aOf row).val + (sOf row).val := by
  show row.val = 2048 * (row.val / 2048) + row.val % 2048
  omega

/-! ## The blocks, by their literal types -/

abbrev xblk (c : Dev nD) (t : Fin cfg0.N) : Vec Ideal S512x1024 .f32 := iblk m c 0 t
abbrev wblk (c : Dev nD) (t : Fin cfg0.N) : Vec Ideal S1024x1024 .f32 := iblk m c 1 t
abbrev sblk (c : Dev nD) (t : Fin cfg0.N) : Vec Ideal S1x1 .f32 := iblk m c 2 t
abbrev wcblk (c : Dev nD) (t : Fin cfg0.N) : Vec Ideal S1024x1 .f32 := iblk m c 3 t
abbrev wrblk (c : Dev nD) (t : Fin cfg0.N) : Vec Ideal S1x1024 .f32 := iblk m c 4 t
abbrev bblk (c : Dev nD) (t : Fin cfg0.N) : Vec Ideal S1x1024 .f32 := iblk m c 5 t

/-! ## A block's entry is its array's entry -/

theorem xblk_read (c : Dev nD) (t : Fin cfg0.N) (p : Fin 512) (u : Fin 1024) (P : Fin 8192) (U : Fin 4096)
    (hP : P.val = 512 * (t.val / 16) + p.val) (hU : U.val = 1024 * (t.val % 4) + u.val) :
    xblk m c t (ix2 p u) = (V m c main_v12 : S8192x4096.Idx → EReal) (ix2 P U) := by
  show V m c main_v12 (((cfg0.win 0).blk t).view.emb (ix2 p u)) = V m c main_v12 (ix2 P U)
  refine congrArg _ (funext fun a => Fin.ext ?_)
  match a with
  | ⟨0, _⟩ =>
    show win0_0.index t 0 * 512 + 1 * p.val = P.val
    rw [(idx_x t).1, hP]; omega
  | ⟨1, _⟩ =>
    show win0_0.index t 1 * 1024 + 1 * u.val = U.val
    rw [(idx_x t).2, hU]; omega

theorem wblk_read (c : Dev nD) (t : Fin cfg0.N) (p : Fin 1024) (u : Fin 1024) (P : Fin 4096) (U : Fin 4096)
    (hP : P.val = 1024 * (t.val / 4 % 4) + p.val) (hU : U.val = 1024 * (t.val % 4) + u.val) :
    wblk m c t (ix2 p u) = (V m c main_arg1 : S4096x4096.Idx → EReal) (ix2 P U) := by
  show V m c main_arg1 (((cfg0.win 1).blk t).view.emb (ix2 p u)) = V m c main_arg1 (ix2 P U)
  refine congrArg _ (funext fun a => Fin.ext ?_)
  match a with
  | ⟨0, _⟩ =>
    show win0_1.index t 0 * 1024 + 1 * p.val = P.val
    rw [(idx_w t).1, hP]; omega
  | ⟨1, _⟩ =>
    show win0_1.index t 1 * 1024 + 1 * u.val = U.val
    rw [(idx_w t).2, hU]; omega

theorem sblk_read (c : Dev nD) (t : Fin cfg0.N) (p : Fin 1) (u : Fin 1) (P : Fin 1) (U : Fin 1)
    (hP : P.val = 0 + p.val) (hU : U.val = 0 + u.val) :
    sblk m c t (ix2 p u) = (V m c main_v11 : S1x1.Idx → EReal) (ix2 P U) := by
  show V m c main_v11 (((cfg0.win 2).blk t).view.emb (ix2 p u)) = V m c main_v11 (ix2 P U)
  refine congrArg _ (funext fun a => Fin.ext ?_)
  match a with
  | ⟨0, _⟩ =>
    show win0_2.index t 0 * 1 + 1 * p.val = P.val
    rw [(idx_s t).1, hP]; omega
  | ⟨1, _⟩ =>
    show win0_2.index t 1 * 1 + 1 * u.val = U.val
    rw [(idx_s t).2, hU]; omega

theorem wcblk_read (c : Dev nD) (t : Fin cfg0.N) (p : Fin 1024) (u : Fin 1) (P : Fin 4096) (U : Fin 1)
    (hP : P.val = 1024 * (t.val / 4 % 4) + p.val) (hU : U.val = 0 + u.val) :
    wcblk m c t (ix2 p u) = (V m c main_v6 : S4096x1.Idx → EReal) (ix2 P U) := by
  show V m c main_v6 (((cfg0.win 3).blk t).view.emb (ix2 p u)) = V m c main_v6 (ix2 P U)
  refine congrArg _ (funext fun a => Fin.ext ?_)
  match a with
  | ⟨0, _⟩ =>
    show win0_3.index t 0 * 1024 + 1 * p.val = P.val
    rw [(idx_wc t).1, hP]; omega
  | ⟨1, _⟩ =>
    show win0_3.index t 1 * 1 + 1 * u.val = U.val
    rw [(idx_wc t).2, hU]; omega

theorem wrblk_read (c : Dev nD) (t : Fin cfg0.N) (p : Fin 1) (u : Fin 1024) (P : Fin 1) (U : Fin 4096)
    (hP : P.val = 0 + p.val) (hU : U.val = 1024 * (t.val / 4 % 4) + u.val) :
    wrblk m c t (ix2 p u) = (V m c main_v7 : S1x4096.Idx → EReal) (ix2 P U) := by
  show V m c main_v7 (((cfg0.win 4).blk t).view.emb (ix2 p u)) = V m c main_v7 (ix2 P U)
  refine congrArg _ (funext fun a => Fin.ext ?_)
  match a with
  | ⟨0, _⟩ =>
    show win0_4.index t 0 * 1 + 1 * p.val = P.val
    rw [(idx_wr t).1, hP]; omega
  | ⟨1, _⟩ =>
    show win0_4.index t 1 * 1024 + 1 * u.val = U.val
    rw [(idx_wr t).2, hU]; omega

theorem bblk_read (c : Dev nD) (t : Fin cfg0.N) (p : Fin 1) (u : Fin 1024) (P : Fin 1) (U : Fin 4096)
    (hP : P.val = 0 + p.val) (hU : U.val = 1024 * (t.val / 4 % 4) + u.val) :
    bblk m c t (ix2 p u) = (V m c main_v13 : S1x4096.Idx → EReal) (ix2 P U) := by
  show V m c main_v13 (((cfg0.win 5).blk t).view.emb (ix2 p u)) = V m c main_v13 (ix2 P U)
  refine congrArg _ (funext fun a => Fin.ext ?_)
  match a with
  | ⟨0, _⟩ =>
    show win0_5.index t 0 * 1 + 1 * p.val = P.val
    rw [(idx_b t).1, hP]; omega
  | ⟨1, _⟩ =>
    show win0_5.index t 1 * 1024 + 1 * u.val = U.val
    rw [(idx_b t).2, hU]; omega

/-! ## The entries in terms of the inputs and the scales -/

/-- The activation block's entry (r, kk) at contraction block k = t % 4. -/
theorem xblk_entry (c : Dev nD) (t : Fin cfg0.N) (r : Fin 512) (kk : Fin 1024) :
    xblk m c t (ix2 r kk)
      = xin m c (ix3 (aOf (rowOf t r)) (sOf (rowOf t r)) (kcol (t.val % 4) (Nat.mod_lt _ (by norm_num)) kk)) :=
  (xblk_read m c t r kk (rowOf t r) (kcol (t.val % 4) (Nat.mod_lt _ (by norm_num)) kk) rfl rfl).trans
    (x2_apply m c _ _ _ _ (row_split _))

/-- The weight block's entry (cc, kk): weight row colOf t cc, column of contraction block k. -/
theorem wblk_entry (c : Dev nD) (t : Fin cfg0.N) (cc : Fin 1024) (kk : Fin 1024) :
    wblk m c t (ix2 cc kk) = win m c (ix2 (colOf t cc) (kcol (t.val % 4) (Nat.mod_lt _ (by norm_num)) kk)) :=
  (wblk_read m c t cc kk (colOf t cc) (kcol (t.val % 4) (Nat.mod_lt _ (by norm_num)) kk) rfl rfl).trans
    (congrFun (w_apply m c) _)

/-- The 1 x 1 block is the activation scale. -/
theorem sblk_entry (c : Dev nD) (t : Fin cfg0.N) : sblk m c t (ix2 (0 : Fin 1) (0 : Fin 1)) = xs (xin m c) :=
  (sblk_read m c t 0 0 0 0 rfl rfl).trans (xs_apply m c)

/-- The scale column's entry (cc, 0). -/
theorem wcblk_entry (c : Dev nD) (t : Fin cfg0.N) (cc : Fin 1024) :
    wcblk m c t (ix2 cc (0 : Fin 1)) = ws (win m c) (colOf t cc) :=
  (wcblk_read m c t cc 0 (colOf t cc) 0 rfl rfl).trans (wcol_apply m c _)

/-- The scale row's entry (0, cc). -/
theorem wrblk_entry (c : Dev nD) (t : Fin cfg0.N) (cc : Fin 1024) :
    wrblk m c t (ix2 (0 : Fin 1) cc) = ws (win m c) (colOf t cc) :=
  (wrblk_read m c t 0 cc 0 (colOf t cc) rfl rfl).trans (wrow_apply m c _)

/-- The bias row's entry (0, cc). -/
theorem bblk_entry (c : Dev nD) (t : Fin cfg0.N) (cc : Fin 1024) :
    bblk m c t (ix2 (0 : Fin 1) cc) = bin m c (ix1 (colOf t cc)) :=
  (bblk_read m c t 0 cc 0 (colOf t cc) rfl rfl).trans (brow_apply m c _)

end Cert.Proof.KBlocks

end
-- ==== Proof.KPieces.lean ====
/-
  What each case of the kernel body leaves behind, as a function of the blocks it was handed.

  The body runs at every grid point (i, j, k). It quantizes the activation block and the weight block, multiplies them
  into the scratch accumulator, and
    * at the first step of a contraction (k = 0) first resets the accumulator to zero, so it leaves "zero plus this
      step's product";
    * at the steps in between leaves "what the step before left, plus this step's product";
    * at the last step (k = 3) does the same and then writes the output block: the accumulator scaled twice plus the bias.
-/
import proofs.«150163_j41394894798994_1_alg».proof.Proof.Gen.KernelIdeal.Frame
import Idealize.ShloMosaic.Lib.Pipeline.Value

set_option maxRecDepth 16384

noncomputable section

namespace Cert.Proof.KPieces

open Idealize.ShloMosaic Idealize.ShloMosaic.TcCoe Idealize.ShloMosaic.Tactic Idealize.SL.Sem
open Cert.KernelIdeal Cert.KernelIdeal.Gen

variable {F : FTy → Type} [FloatOps F]

/-- The zero offset of a whole-block access. -/
theorem hz : (![0, 0] : Fin 2 → Nat) = fun _ => 0 := funext fun a => by fin_cases a <;> rfl

/-- First step: the accumulator is reset and then holds zero plus this step's product. -/
theorem sout_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i) (x0 : Vec F S512x1024 .f32) (x1 : Vec F S1024x1024 .f32) (x2 : Vec F S1x1 .f32) (x3 : Vec F S1024x1 .f32) (x4 : Vec F S1x1024 .f32) (x5 : Vec F S1x1024 .f32) :
    sout0_A_0 c i arg3 harg3 arg4 harg4 arg5 harg5 arg6 harg6 arg7 harg7 arg8 harg8 arg9 harg9 arg10 harg10 hc0 hc1 x0 x1 x2 x3 x4 x5 = k0_pay4 x0 x2 x1 x3 (k0_pay2 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1) hz, View.ld_unit_zero (S := S1024x1) hz, View.ld_unit_zero (S := S1x1024) hz]

/-- A step in between: what the step before left, plus this step's product. -/
theorem sout_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : ¬cond0_1 i) (x0 : Vec F S512x1024 .f32) (x1 : Vec F S1024x1024 .f32) (x2 : Vec F S1x1 .f32) (x3 : Vec F S1024x1 .f32) (x4 : Vec F S1x1024 .f32) (x5 : Vec F S1x1024 .f32)
    (xs0 : Vec F S512x1024 .f32) :
    sout0_B_0 c i arg3 harg3 arg4 harg4 arg5 harg5 arg6 harg6 arg7 harg7 arg8 harg8 arg9 harg9 arg10 harg10 hc0 hc1 x0 x1 x2 x3 x4 x5 xs0 = k0_pay4 x0 x2 x1 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1) hz, View.ld_unit_zero (S := S1024x1) hz, View.ld_unit_zero (S := S1x1024) hz]

/-- Last step, the accumulator: what the step before left, plus this step's product. -/
theorem sout_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i) (x0 : Vec F S512x1024 .f32) (x1 : Vec F S1024x1024 .f32) (x2 : Vec F S1x1 .f32) (x3 : Vec F S1024x1 .f32) (x4 : Vec F S1x1024 .f32) (x5 : Vec F S1x1024 .f32)
    (xs0 : Vec F S512x1024 .f32) :
    sout0_C_0 c i arg3 harg3 arg4 harg4 arg5 harg5 arg6 harg6 arg7 harg7 arg8 harg8 arg9 harg9 arg10 harg10 hc0 hc1 x0 x1 x2 x3 x4 x5 xs0 = k0_pay4 x0 x2 x1 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1) hz, View.ld_unit_zero (S := S1024x1) hz, View.ld_unit_zero (S := S1x1024) hz]

/-- Last step, the output block: the final accumulator scaled by the activation scale and the weight scales, plus the bias. -/
theorem out_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i) (x0 : Vec F S512x1024 .f32) (x1 : Vec F S1024x1024 .f32) (x2 : Vec F S1x1 .f32) (x3 : Vec F S1024x1 .f32) (x4 : Vec F S1x1024 .f32) (x5 : Vec F S1x1024 .f32)
    (xs0 : Vec F S512x1024 .f32) :
    out0_C_6 c i arg3 harg3 arg4 harg4 arg5 harg5 arg6 harg6 arg7 harg7 arg8 harg8 arg9 harg9 arg10 harg10 hc0 hc1 x0 x1 x2 x3 x4 x5 xs0 = k0_pay1 (k0_pay3 x2) x4 x5 (k0_pay4 x0 x2 x1 x3 xs0) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1) hz, View.ld_unit_zero (S := S1024x1) hz, View.ld_unit_zero (S := S1x1024) hz, View.readCov_unit_zero (S := S512x1024) _ hz]

end Cert.Proof.KPieces

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.Payload.lean ====
/-
  The kernel body's stored values, read at one entry of the 512 x 1024 block, at the extended reals.

  The reset value is a splat of the zero word. The final value is built from pointwise products and sums of the
  accumulator with a one-entry scale and two one-row arrays, each broadcast over the block. The accumulation step
  quantizes the activation block by its one scale and the weight block row by row by its column of scales, and
  contracts the second axis of both blocks: entry (r, c) of the product is the sum over k of the quantized
  activation at (r, k) times the quantized weight at (c, k).
-/
import proofs.«150163_j41394894798994_1_alg».proof.Proof.Gen.KernelIdeal.Skeleton
import proofs.«150163_j41394894798994_1_alg».proof.Proof.Quant
import proofs.«150163_j41394894798994_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Pay

open Idealize.ShloMosaic Idealize.ShloMosaic.ValueIdx Cert.Proof.Quant
open Cert.KernelIdeal Cert.KernelIdeal.Gen
open scoped BigOperators

/-! ## Layout -/

/-- A one-entry array broadcast to `a x b` reads its one entry everywhere: both of its axes have length one. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The reset -/

/-- The reset stores zeros. -/
theorem pay2_apply (y : S512x1024.Idx) : (k0_pay2 (F := Ideal)) y = 0 := by
  unfold k0_pay2
  refine (congrFun (shapeCast_self _ _) y).trans ?_
  exact Ideal.ofBits_zero_f32

/-! ## The two quantized blocks -/

/-- The activation block divided by its scale, rounded, clipped and truncated. -/
def xq (x0 : Vec Ideal S512x1024 .f32) (sx : Vec Ideal S1x1 .f32) : FVec Ideal S512x1024 .bf16 :=
  truncf .bf16
    (minimumf (broadcast S512x1024 (Scalar.ofBits (F := Ideal) .f32 0x42FE0000#32))
      (maximumf (broadcast S512x1024 (Scalar.ofBits (F := Ideal) .f32 0xC3000000#32))
        (roundeven (divf (shapeCast S512x1024 x0 shapeCasts_S512x1024_S512x1024)
          (broadcastTo S512x1024 (k0_pay3 sx) broadcasts_S1x1_S512x1024)))))
    bitsLt_bf16_f32

/-- The weight block divided row by row by its column of scales, rounded, clipped and truncated. -/
def wq (w : Vec Ideal S1024x1024 .f32) (wc : Vec Ideal S1024x1 .f32) : FVec Ideal S1024x1024 .bf16 :=
  truncf .bf16
    (minimumf (broadcast S1024x1024 (Scalar.ofBits (F := Ideal) .f32 0x42FE0000#32))
      (maximumf (broadcast S1024x1024 (Scalar.ofBits (F := Ideal) .f32 0xC3000000#32))
        (roundeven (divf w
          (broadcastTo S1024x1024 (shapeCast S1024x1 wc shapeCasts_S1024x1_S1024x1) broadcasts_S1024x1_S1024x1024)))))
    bitsLt_bf16_f32

/-- Entry (r, k) of the quantized activation block is the activation there quantized by the one scale. -/
theorem xq_apply (x0 : Vec Ideal S512x1024 .f32) (sx : Vec Ideal S1x1 .f32) (r : Fin 512) (kk : Fin 1024) :
    xq x0 sx (ix2 r kk) = q (x0 (ix2 r kk)) (sx (ix2 (0 : Fin 1) (0 : Fin 1))) := by
  have e1 : shapeCast S512x1024 x0 shapeCasts_S512x1024_S512x1024 (ix2 r kk) = x0 (ix2 r kk) :=
    congrFun (shapeCast_self x0 _) _
  have e2 : broadcastTo S512x1024 (k0_pay3 sx) broadcasts_S1x1_S512x1024 (ix2 r kk)
      = sx (ix2 (0 : Fin 1) (0 : Fin 1)) :=
    (broadcastTo_11_ab_apply (k0_pay3 sx) broadcasts_S1x1_S512x1024 r kk).trans
      (congrFun (shapeCast_self sx _) _)
  show min _ (max _ (Ideal.liftRound Ideal.roundHalfEven (Ideal.div _ _))) = q _ _
  rw [e1, e2]
  rfl

/-- Entry (c, k) of the quantized weight block is the weight there quantized by row c's scale. -/
theorem wq_apply (w : Vec Ideal S1024x1024 .f32) (wc : Vec Ideal S1024x1 .f32) (c kk : Fin 1024) :
    wq w wc (ix2 c kk) = q (w (ix2 c kk)) (wc (ix2 c (0 : Fin 1))) := by
  have e2 : broadcastTo S1024x1024 (shapeCast S1024x1 wc shapeCasts_S1024x1_S1024x1) broadcasts_S1024x1_S1024x1024
      (ix2 c kk) = wc (ix2 c (0 : Fin 1)) :=
    (Cert.Proof.Column.broadcastTo_a1_ab_apply _ broadcasts_S1024x1_S1024x1024 c kk).trans
      (congrFun (shapeCast_self wc _) _)
  show min _ (max _ (Ideal.liftRound Ideal.roundHalfEven (Ideal.div _ _))) = q _ _
  rw [e2]
  rfl

/-! ## The matrix product

  The product contracts axis 1 of both blocks: of the left index, axis 0 is the result's row and axis 1 the
  contraction position; of the right index, axis 0 is the result's column and axis 1 the contraction position. -/

/-- The left index's row is the result's row. -/
theorem lhs_mm_0 (i : S512x1024.Idx) (t : dot_S512x1024_S1024x1024_S512x1024_1_1_0_0_n_n.contr.Idx) :
    (dot_S512x1024_S1024x1024_S512x1024_1_1_0_0_n_n.lhsIdx i t 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl

/-- The left index's column is the contraction position. -/
theorem lhs_mm_1 (i : S512x1024.Idx) (t : dot_S512x1024_S1024x1024_S512x1024_1_1_0_0_n_n.contr.Idx) :
    (dot_S512x1024_S1024x1024_S512x1024_1_1_0_0_n_n.lhsIdx i t 1).val = (t ⟨0, by decide⟩).val :=
  dot_S512x1024_S1024x1024_S512x1024_1_1_0_0_n_n.lhsIdx_val_of_single rfl i t

/-- The right index's row is the result's column. -/
theorem rhs_mm_0 (i : S512x1024.Idx) (t : dot_S512x1024_S1024x1024_S512x1024_1_1_0_0_n_n.contr.Idx) :
    (dot_S512x1024_S1024x1024_S512x1024_1_1_0_0_n_n.rhsIdx i t 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- The right index's column is the contraction position. -/
theorem rhs_mm_1 (i : S512x1024.Idx) (t : dot_S512x1024_S1024x1024_S512x1024_1_1_0_0_n_n.contr.Idx) :
    (dot_S512x1024_S1024x1024_S512x1024_1_1_0_0_n_n.rhsIdx i t 1).val = (t ⟨0, by decide⟩).val :=
  dot_S512x1024_S1024x1024_S512x1024_1_1_0_0_n_n.rhsIdx_val_of_single rfl i t

/-- Entry (r, c) of the product into a zero accumulator: the sum over k of the left block at (r, k) times the right
    block at (c, k). -/
theorem mm_apply (A : FVec Ideal S512x1024 .bf16) (B : FVec Ideal S1024x1024 .bf16) (r : Fin 512) (c : Fin 1024) :
    matmul (F := Ideal) dot_S512x1024_S1024x1024_S512x1024_1_1_0_0_n_n none A B (constant (F := Ideal) S512x1024 .f32 0x00000000#32) (ix2 r c)
      = ∑ kk : Fin 1024, A (ix2 r kk) * B (ix2 c kk) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r c) ((ValueIdx.contrEquiv1 dot_S512x1024_S1024x1024_S512x1024_1_1_0_0_n_n 1024 rfl rfl).symm k) = ix2 r k := funext fun a => Fin.ext (by
    match a with
    | ⟨0, _⟩ => exact lhs_mm_0 _ _
    | ⟨1, _⟩ => exact (lhs_mm_1 _ _).trans hk)
  have er : dot_S512x1024_S1024x1024_S512x1024_1_1_0_0_n_n.rhsIdx (ix2 r c) ((ValueIdx.contrEquiv1 dot_S512x1024_S1024x1024_S512x1024_1_1_0_0_n_n 1024 rfl rfl).symm k) = ix2 c k := funext fun a => Fin.ext (by
    match a with
    | ⟨0, _⟩ => exact rhs_mm_0 _ _
    | ⟨1, _⟩ => exact (rhs_mm_1 _ _).trans hk)
  rw [el, er]

/-! ## The accumulation step and the final step -/

/-- One accumulation step at entry (r, c): the accumulator's entry plus the sum, over the block's 1024 columns, of the
    products of the quantized activation (row r) and the quantized weight (row c). -/
theorem pay4_apply (x0 : Vec Ideal S512x1024 .f32) (sx : Vec Ideal S1x1 .f32) (w : Vec Ideal S1024x1024 .f32)
    (wc : Vec Ideal S1024x1 .f32) (a0 : Vec Ideal S512x1024 .f32) (r : Fin 512) (c : Fin 1024) :
    k0_pay4 (F := Ideal) x0 sx w wc a0 (ix2 r c)
      = a0 (ix2 r c) + ∑ kk : Fin 1024,
          q (x0 (ix2 r kk)) (sx (ix2 (0 : Fin 1) (0 : Fin 1))) * q (w (ix2 c kk)) (wc (ix2 c (0 : Fin 1))) := by
  unfold k0_pay4
  refine (congrFun (shapeCast_self _ _) (ix2 r c)).trans ?_
  show a0 (ix2 r c) + matmul (F := Ideal) dot_S512x1024_S1024x1024_S512x1024_1_1_0_0_n_n none (xq x0 sx) (wq w wc)
      (constant (F := Ideal) S512x1024 .f32 0x00000000#32) (ix2 r c) = _
  refine congrArg (a0 (ix2 r c) + ·) ((mm_apply (xq x0 sx) (wq w wc) r c).trans ?_)
  exact Finset.sum_congr rfl fun kk _ => by rw [xq_apply, wq_apply]

/-- The final step at entry (r, c): the accumulator scaled by the activation scale, then by column c's weight scale,
    plus column c's bias. -/
theorem pay1_apply (sx : Vec Ideal S1x1 .f32) (wr bb : Vec Ideal S1x1024 .f32) (a0 : Vec Ideal S512x1024 .f32)
    (r : Fin 512) (c : Fin 1024) :
    k0_pay1 (F := Ideal) (k0_pay3 sx) wr bb a0 (ix2 r c)
      = (a0 (ix2 r c) * sx (ix2 (0 : Fin 1) (0 : Fin 1))) * wr (ix2 (0 : Fin 1) c) + bb (ix2 (0 : Fin 1) c) := by
  have e1 : broadcastTo S512x1024 (k0_pay3 sx) broadcasts_S1x1_S512x1024 (ix2 r c)
      = sx (ix2 (0 : Fin 1) (0 : Fin 1)) :=
    (broadcastTo_11_ab_apply (k0_pay3 sx) broadcasts_S1x1_S512x1024 r c).trans
      (congrFun (shapeCast_self sx _) _)
  have e2 : broadcastTo S512x1024 (shapeCast S1x1024 wr shapeCasts_S1x1024_S1x1024) broadcasts_S1x1024_S512x1024
      (ix2 r c) = wr (ix2 (0 : Fin 1) c) :=
    (broadcastTo_1b_ab_apply _ broadcasts_S1x1024_S512x1024 r c).trans (congrFun (shapeCast_self wr _) _)
  have e3 : broadcastTo S512x1024 (shapeCast S1x1024 bb shapeCasts_S1x1024_S1x1024) broadcasts_S1x1024_S512x1024
      (ix2 r c) = bb (ix2 (0 : Fin 1) c) :=
    (broadcastTo_1b_ab_apply _ broadcasts_S1x1024_S512x1024 r c).trans (congrFun (shapeCast_self bb _) _)
  unfold k0_pay1
  show (a0 (ix2 r c) * _) * _ + _ = _
  rw [e1, e2, e3]

end Cert.Proof.Pay

end
-- ==== Proof.KInv.lean ====
/-
  The accumulator after every grid point, and the output block at the last step of a contraction.

  Fix an output entry: row `row` of the 8192-row activation matrix and weight row `col`. Its contraction terms are
  f k = q(x[row, k], xs) · q(W[col, k], ws col), k < 4096. The body visits the entry's (i, j) at four consecutive
  points k = 0, 1, 2, 3 and adds, at step k, the sum of f over columns 1024·k … 1024·k + 1023 to the accumulator, which
  step 0 first resets. So after step k the accumulator holds the running total over the first k + 1 column blocks, and
  after step 3 the sum over all 4096 columns; the output entry is that sum scaled by xs and by ws col, plus the bias.
-/
import proofs.«150163_j41394894798994_1_alg».proof.Proof.KBlocks
import proofs.«150163_j41394894798994_1_alg».proof.Proof.KPieces
import proofs.«150163_j41394894798994_1_alg».proof.Proof.Payload

set_option maxRecDepth 16384

noncomputable section

namespace Cert.Proof.KInv

open Idealize.ShloMosaic Idealize.ShloMosaic.TcCoe Idealize.ShloMosaic.Tactic Idealize.SL.Sem
open Idealize.ShloMosaic.ValueIdx
open Cert.KernelIdeal Cert.KernelIdeal.Gen Cert.Proof.KHost Cert.Proof.KBlocks Cert.Proof.Spec Cert.Proof.Quant
open scoped BigOperators

variable (m : (ℓ : Loc nD τ sig) → Buf (Elt Ideal) ℓ)

/-- The contraction terms of the output entry (row, col). -/
def term (c : Dev nD) (row : Fin 8192) (col : Fin 4096) (k : Fin 4096) : EReal :=
  q (xin m c (ix3 (aOf row) (sOf row) k)) (xs (xin m c)) * q (win m c (ix2 col k)) (ws (win m c) col)

/-- The contraction block a point works on. -/
theorem kb_lt (t : Fin cfg0.N) : t.val % 4 < 4 := Nat.mod_lt _ (by norm_num)

/-- One more block in the running total. -/
theorem acc_step (f : Fin 4096 → EReal) (kb : ℕ) (hkb : kb < 4) :
    acc f (kb + 1) = acc f kb + ∑ kk : Fin 1024, f (kcol kb hkb kk) := acc_succ f hkb

/-- One accumulation step at point t, entry (r, cc): the accumulator's entry plus the entry's terms over the point's
    column block. -/
theorem step_eq (c : Dev nD) (t : Fin cfg0.N) (a0 : Vec Ideal S512x1024 .f32) (r : Fin 512) (cc : Fin 1024) :
    k0_pay4 (F := Ideal) (xblk m c t) (sblk m c t) (wblk m c t) (wcblk m c t) a0 (ix2 r cc)
      = a0 (ix2 r cc) + ∑ kk : Fin 1024, term m c (rowOf t r) (colOf t cc) (kcol (t.val % 4) (kb_lt t) kk) := by
  refine (Cert.Proof.Pay.pay4_apply (xblk m c t) (sblk m c t) (wblk m c t) (wcblk m c t) a0 r cc).trans ?_
  refine congrArg (a0 (ix2 r cc) + ·) (Finset.sum_congr rfl fun kk _ => ?_)
  rw [xblk_entry m c t r kk, sblk_entry m c t, wblk_entry m c t cc kk, wcblk_entry m c t cc]
  rfl

/-- At the first step of a contraction the accumulator ends at zero plus the first block's terms. -/
theorem scr_first (c : Dev nD) (t : Fin cfg0.N) (h0 : t.val % 4 = 0) (h1 : ¬t.val % 4 = 3) (r : Fin 512) (cc : Fin 1024) :
    (outsAt0 m c t.val t.isLt).2 (ix2 r cc)
      = 0 + ∑ kk : Fin 1024, term m c (rowOf t r) (colOf t cc) (kcol (t.val % 4) (kb_lt t) kk) := by
  rw [outsAt0_A m c t h0 h1]
  dsimp only
  refine (congrFun (Cert.Proof.KPieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    ((hcond0_0 t).mpr h0) (fun h => h1 ((hcond0_1 t).mp h)) (iblk m c 0 t) (iblk m c 1 t) (iblk m c 2 t) (iblk m c 3 t) (iblk m c 4 t) (iblk m c 5 t)) (ix2 r cc)).trans ?_
  refine (step_eq m c t (k0_pay2 (F := Ideal)) r cc).trans ?_
  rw [Cert.Proof.Pay.pay2_apply]

/-- At a later step the accumulator ends at what the point before left plus this block's terms. -/
theorem scr_next (c : Dev nD) (t : Fin cfg0.N) (h0 : ¬t.val % 4 = 0) (r : Fin 512) (cc : Fin 1024) :
    (outsAt0 m c t.val t.isLt).2 (ix2 r cc)
      = (outsAt0 m c (t.val - 1) (Nat.lt_of_le_of_lt (Nat.sub_le _ _) t.isLt)).2 (ix2 r cc)
        + ∑ kk : Fin 1024, term m c (rowOf t r) (colOf t cc) (kcol (t.val % 4) (kb_lt t) kk) := by
  by_cases h1 : t.val % 4 = 3
  · rw [outsAt0_C m c t h0 h1]
    dsimp only
    refine (congrFun (Cert.Proof.KPieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h1) (iblk m c 0 t) (iblk m c 1 t) (iblk m c 2 t) (iblk m c 3 t) (iblk m c 4 t) (iblk m c 5 t)
      (outsAt0 m c (t.val - 1) (Nat.lt_of_le_of_lt (Nat.sub_le _ _) t.isLt)).2) (ix2 r cc)).trans ?_
    exact step_eq m c t _ r cc
  · rw [outsAt0_B m c t h0 h1]
    dsimp only
    refine (congrFun (Cert.Proof.KPieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) (fun h => h1 ((hcond0_1 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2) (ix2 r cc)).trans ?_
    exact step_eq m c t _ r cc

/-- THE ACCUMULATOR after point n: the running total of the entry's terms over the first n % 4 + 1 column blocks. -/
theorem scratch_eq (c : Dev nD) : ∀ (n : ℕ) (hn : n < cfg0.N) (r : Fin 512) (cc : Fin 1024),
    (outsAt0 m c n hn).2 (ix2 r cc) = acc (term m c (rowOf ⟨n, hn⟩ r) (colOf ⟨n, hn⟩ cc)) (n % 4 + 1) := by
  intro n
  induction n with
  | zero =>
    intro hn r cc
    refine (scr_first m c ⟨0, hn⟩ rfl (by show ¬(0 % 4 = 3); decide) r cc).trans ?_
    rw [acc_step _ (0 % 4) (kb_lt ⟨0, hn⟩)]
    exact congrArg (· + _) (acc_zero _).symm
  | succ n ih =>
    intro hn r cc
    have hn' : n < cfg0.N := Nat.lt_of_succ_lt hn
    have hN : n + 1 < 256 := t_lt ⟨n + 1, hn⟩
    by_cases h0 : (n + 1) % 4 = 0
    · refine (scr_first m c ⟨n + 1, hn⟩ h0 (by show ¬(n + 1) % 4 = 3; omega) r cc).trans ?_
      rw [acc_step _ ((n + 1) % 4) (kb_lt ⟨n + 1, hn⟩)]
      refine congrArg (· + _) ?_
      rw [h0]
      exact (acc_zero _).symm
    · refine (scr_next m c ⟨n + 1, hn⟩ h0 r cc).trans ?_
      rw [acc_step _ ((n + 1) % 4) (kb_lt ⟨n + 1, hn⟩)]
      refine congrArg (· + _) ?_
      refine (ih hn' r cc).trans ?_
      have e1 : rowOf ⟨n, hn'⟩ r = rowOf ⟨n + 1, hn⟩ r :=
        Fin.ext (by show 512 * (n / 16) + r.val = 512 * ((n + 1) / 16) + r.val; omega)
      have e2 : colOf ⟨n, hn'⟩ cc = colOf ⟨n + 1, hn⟩ cc :=
        Fin.ext (by show 1024 * (n / 4 % 4) + cc.val = 1024 * ((n + 1) / 4 % 4) + cc.val; omega)
      have e3 : n % 4 + 1 = (n + 1) % 4 := by omega
      rw [e1, e2, e3]

/-- THE OUTPUT BLOCK at a last step: the sum of all the entry's terms, scaled by the activation scale and the weight
    row's scale, plus the bias. -/
theorem out_last (c : Dev nD) (t : Fin cfg0.N) (h3 : t.val % 4 = 3) (r : Fin 512) (cc : Fin 1024) :
    (outsAt0 m c t.val t.isLt).1 (ix2 r cc)
      = ((∑ k : Fin 4096, term m c (rowOf t r) (colOf t cc) k) * xs (xin m c)) * ws (win m c) (colOf t cc)
        + bin m c (ix1 (colOf t cc)) := by
  have h0 : ¬t.val % 4 = 0 := by omega
  have hs := scratch_eq m c t.val t.isLt r cc
  rw [outsAt0_C m c t h0 h3] at hs ⊢
  dsimp only at hs ⊢
  have hs' := (congrFun (Cert.Proof.KPieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h3) (iblk m c 0 t) (iblk m c 1 t) (iblk m c 2 t) (iblk m c 3 t) (iblk m c 4 t) (iblk m c 5 t)
      (outsAt0 m c (t.val - 1) (Nat.lt_of_le_of_lt (Nat.sub_le _ _) t.isLt)).2) (ix2 r cc)).symm.trans hs
  refine (congrFun (Cert.Proof.KPieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h3) (iblk m c 0 t) (iblk m c 1 t) (iblk m c 2 t) (iblk m c 3 t) (iblk m c 4 t) (iblk m c 5 t)
      (outsAt0 m c (t.val - 1) (Nat.lt_of_le_of_lt (Nat.sub_le _ _) t.isLt)).2) (ix2 r cc)).trans ?_
  refine (Cert.Proof.Pay.pay1_apply (sblk m c t) (wrblk m c t) (bblk m c t) _ r cc).trans ?_
  rw [hs', sblk_entry m c t, wrblk_entry m c t cc, bblk_entry m c t cc, h3]
  exact congrArg (fun z => (z * _) * _ + _) (acc_last _)

end Cert.Proof.KInv

end
-- ==== Proof.KFinal.lean ====
/-
  The output array after the region, the reshape after it, and the kernel program's run read as a value.

  The output matrix has 8192 rows and 4096 columns; entry (2048·a + s, n) is the sum-first value at (a, s, n). The block
  written back at a last step (point t with t % 4 = 3) is rows 512·(t / 16) … and columns 1024·(t / 4 % 4) … of that matrix,
  and the 16 x 4 such blocks tile it: entry (i₀, i₁) lies in the block of the point 16·(i₀ / 512) + 4·(i₁ / 1024) + 3.
  The host then views the matrix as [4, 2048, 4096], which is the sum-first array itself.
-/
import proofs.«150163_j41394894798994_1_alg».proof.Proof.KInv
import Idealize.ShloMosaic.Lib.Pipeline.Value
import Idealize.ShloMosaic.Lib.StableHlo.Run

set_option maxRecDepth 16384

noncomputable section

namespace Cert.Proof.KFinal

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen Cert.Proof.KHost Cert.Proof.KBlocks Cert.Proof.KInv Cert.Proof.Spec Cert.Proof.Quant
open scoped BigOperators

variable (m : (ℓ : Loc nD τ sig) → Buf (Elt Ideal) ℓ) (ρ : Dev nD → PrngReg)

/-- The output matrix: entry (row, n) is the sum-first value at (row / 2048, row % 2048, n). -/
def outMat (c : Dev nD) : S8192x4096.Idx → EReal := fun i =>
  sumFirst (xin m c) (win m c) (bin m c) (ix3 (aOf (i 0)) (sOf (i 0)) (i 1))

theorem outMat_apply (c : Dev nD) (row : Fin 8192) (n : Fin 4096) :
    outMat m c (ix2 row n) = sumFirst (xin m c) (win m c) (bin m c) (ix3 (aOf row) (sOf row) n) := rfl

/-- What a last step writes back is its block of the output matrix. -/
theorem flushed_eq (c : Dev nD) (t : Fin cfg0.N) (hf : (cfg0.win 6).flush t = true) :
    (dats m 0 c).flushed 6 t = ((cfg0.win 6).blk t).view.read (Elt Ideal) (outMat m c) := by
  have h3 : t.val % 4 = 3 := (flush0_6 t).mp hf
  show (cfg0.win 6).cut (grid0.coords t) ((dats m 0 c).after 6 t) = _
  rw [after0_6]
  funext j
  show (outsAt0 m c t.val t.isLt).1 (win0_6.xinj (grid0.coords t) j) = outMat m c (((cfg0.win 6).blk t).view.emb j)
  have hj0 : (j 0).val < 512 := Nat.lt_of_lt_of_le (j 0).isLt (win0_6.xsize_le (grid0.coords t) 0)
  have hj1 : (j 1).val < 1024 := Nat.lt_of_lt_of_le (j 1).isLt (win0_6.xsize_le (grid0.coords t) 1)
  have hx : win0_6.xinj (grid0.coords t) j = ix2 (⟨(j 0).val, hj0⟩ : Fin 512) (⟨(j 1).val, hj1⟩ : Fin 1024) :=
    funext fun a => Fin.ext (by match a with | ⟨0, _⟩ => rfl | ⟨1, _⟩ => rfl)
  have he : ((cfg0.win 6).blk t).view.emb j
      = ix2 (rowOf t ⟨(j 0).val, hj0⟩) (colOf t ⟨(j 1).val, hj1⟩) :=
    funext fun a => Fin.ext (by
      match a with
      | ⟨0, _⟩ =>
        show win0_6.index t 0 * 512 + 1 * (j 0).val = 512 * (t.val / 16) + (j 0).val
        rw [(idx_o t).1]; omega
      | ⟨1, _⟩ =>
        show win0_6.index t 1 * 1024 + 1 * (j 1).val = 1024 * (t.val / 4 % 4) + (j 1).val
        rw [(idx_o t).2]; omega)
  rw [hx, he, outMat_apply, sumFirst_apply]
  exact out_last m c t h3 _ _

/-- An index of the output matrix is in point t's block iff each coordinate is in the block's range. -/
theorem mem_blk (t : Fin cfg0.N) (i : S8192x4096.Idx) :
    i ∈ ((cfg0.win 6).blk t).view.set
      ↔ ∀ a : Fin 2, win0_6.index t a * S512x1024.size a ≤ (i a).val ∧ (i a).val < win0_6.index t a * S512x1024.size a + S512x1024.size a := by
  show i ∈ ((View.whole main_v14).slice (win0_6.rect t)).set ↔ _
  rw [View.set_slice_whole, Rect.mem_set_unit]
  exact Iff.rfl

/-- The blocks written back tile the output matrix. -/
theorem cover (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 256 := N_0
  let t : Fin cfg0.N := ⟨16 * ((i 0).val / 512) + 4 * ((i 1).val / 1024) + 3, by rw [hN]; omega⟩
  have ht : t.val = 16 * ((i 0).val / 512) + 4 * ((i 1).val / 1024) + 3 := rfl
  refine ⟨t, (flush0_6 t).mpr (by rw [ht]; omega), ?_⟩
  rw [mem_blk]
  intro a
  match a with
  | ⟨0, _⟩ =>
    show win0_6.index t 0 * 512 ≤ (i 0).val ∧ (i 0).val < win0_6.index t 0 * 512 + 512
    rw [(idx_o t).1, ht]; omega
  | ⟨1, _⟩ =>
    show win0_6.index t 1 * 1024 ≤ (i 1).val ∧ (i 1).val < win0_6.index t 1 * 1024 + 1024
    rw [(idx_o t).2, ht]; omega

/-- The output matrix after the region. -/
theorem final (c : Dev nD) : (dats m 0 c).arrAt 6 cfg0.N = outMat m c :=
  (dats m 0 c).arrAt_eq_of_cover 6 (outMat m c) (flushed_eq m c) (cover)

/-- The reshape after the region: the matrix viewed as [4, 2048, 4096] is the sum-first array. -/
theorem tail_eq (c : Dev nD) :
    Pipeline.afterTail₀ cfgs (dats m) 0 (V0 m) [hostOps1] c main_v15 = sumFirst (xin m c) (win m c) (bin m c) := by
  unfold Pipeline.afterTail₀
  show StableHlo.after hostOps1 _ (Proc.devRef .tc main_v15) = _
  after_results
  have hw : (Pipeline.withArrays (cfgs 0).spec c (V0 m c) (fun w => (dats m 0 c).arrAt w (cfgs 0).N)
      (Proc.devRef .tc main_v14) : S8192x4096.Idx → EReal) = outMat m c :=
    (Pipeline.withArrays_arr spec0 launch0.win.arr_inj c _ _ 6).trans (final m c)
  funext i
  obtain ⟨a, s, n, rfl⟩ : ∃ (a : Fin 4) (s : Fin 2048) (n : Fin 4096), i = ix3 a s n := ⟨i 0, i 1, i 2, eq_ix3 i⟩
  show shapeCast S4x2048x4096 (Pipeline.withArrays (cfgs 0).spec c (V0 m c) (fun w => (dats m 0 c).arrAt w (cfgs 0).N)
      (Proc.devRef .tc main_v14)) shapeCasts_S8192x4096_S4x2048x4096 (ix3 a s n) = _
  rw [hw]
  have hrow : 2048 * a.val + s.val < 8192 := by omega
  refine (shapeCast_apply (outMat m c) shapeCasts_S8192x4096_S4x2048x4096 (ix3 a s n)
    (ix2 (⟨2048 * a.val + s.val, hrow⟩ : Fin 8192) n) (by
      rw [Shape.rowMajor_val_two, Shape.rowMajor_val_three]
      show (2048 * a.val + s.val) * 4096 + n.val = (a.val * 2048 + s.val) * 4096 + n.val
      ring)).trans ?_
  rw [outMat_apply]
  have ea : aOf (⟨2048 * a.val + s.val, hrow⟩ : Fin 8192) = a :=
    Fin.ext (by show (2048 * a.val + s.val) / 2048 = a.val; omega)
  have es : sOf (⟨2048 * a.val + s.val, hrow⟩ : Fin 8192) = s :=
    Fin.ext (by show (2048 * a.val + s.val) % 2048 = s.val; omega)
  rw [ea, es]

/-- THE RUN of the kernel program, read as a value: its result array ends at the sum-first array of its arguments, which
    end unchanged. -/
theorem run : θ_run defs (onTc (τ := τ) (main (F := Ideal))) ⟨m, fun _ => 0, ρ⟩ (fun r => ∀ c : Dev nD,
      r.2.mem ((c.tc : Thread nD τ).loc main_v15) = sumFirst (xin m c) (win m c) (bin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Proof.KFinal

end
-- ==== Proof.RefSide.lean ====
/-
  The reference program computes the scale-first form: its result, stage by stage, read at one entry.

  The reference divides every activation by the activation scale (one number, repeated over the whole tensor), rounds to the
  nearest integer with ties to even, clips below by -128 and above by 127, and multiplies by the scale again; it does the
  same to every weight with the scale of the weight's row. Its contraction sums, over the 4096 columns k, the product of
  the treated activation at (a, s, k) and the treated weight at (n, k), and the bias of column n is added to the sum.
  Entry by entry that is the scale-first form.
-/
import proofs.«150163_j41394894798994_1_alg».proof.Proof.Spec

noncomputable section

namespace Cert.Proof.RefSide

open Idealize.ShloMosaic Idealize.ShloMosaic.ValueIdx Cert.Proof.Quant Cert.Proof.Spec
open Cert.ReferenceIdeal.Read
open scoped BigOperators

/-! ## Where each stage reads its operand -/

/-- The contraction reads the activations of row (a, s) at column k. -/
theorem lidx_eq (a : Fin 4) (s : Fin 2048) (n k : Fin 4096) : lidx_main_v22 (ix3 a s n) k = ix3 a s k :=
  funext fun d => Fin.ext (by match d with | ⟨0, _⟩ => rfl | ⟨1, _⟩ => rfl | ⟨2, _⟩ => rfl)

/-- The contraction reads the weights of row n at column k. -/
theorem ridx_eq (a : Fin 4) (s : Fin 2048) (n k : Fin 4096) : ridx_main_v22 (ix3 a s n) k = ix2 n k :=
  funext fun d => Fin.ext (by match d with | ⟨0, _⟩ => rfl | ⟨1, _⟩ => rfl)

/-- The bias, repeated over the rows, is read at column n. -/
theorem bidx_eq (a : Fin 4) (s : Fin 2048) (n : Fin 4096) : idx_main_v23 (idx_main_v24 (ix3 a s n)) = ix1 n :=
  funext fun d => Fin.ext (by match d with | ⟨0, _⟩ => rfl)

/-- The row scale, repeated along the row, is read at the row's one entry (before the division). -/
theorem sidx7_eq (n k : Fin 4096) : idx_main_v7 (ix2 n k) = ix2 n (0 : Fin 1) :=
  funext fun d => Fin.ext (by match d with | ⟨0, _⟩ => rfl | ⟨1, _⟩ => rfl)

/-- The row scale, repeated along the row, is read at the row's one entry (before the multiplication). -/
theorem sidx11_eq (n k : Fin 4096) : idx_main_v11 (ix2 n k) = ix2 n (0 : Fin 1) :=
  funext fun d => Fin.ext (by match d with | ⟨0, _⟩ => rfl | ⟨1, _⟩ => rfl)

/-! ## The three operands of the last stages, at one entry -/

/-- A treated activation: quantized by the activation scale, then multiplied by it. -/
theorem x_entry (x : XArr) (a : Fin 4) (s : Fin 2048) (k : Fin 4096) :
    val_main_v21 (F := Ideal) x (ix3 a s k) = q (x (ix3 a s k)) (xs x) * xs x := by
  rw [val_main_v21_apply, val_main_v19_apply, val_main_call3_v4_apply, val_main_call3_v3_apply, val_main_cst_7_apply,
    val_main_call3_v2_apply, val_main_call3_v1_apply, val_main_call3_v0_apply, val_main_cst_6_apply,
    val_main_v18_apply, val_main_v17_apply, val_main_v16_apply, val_main_v20_apply]
  rfl

/-- A treated weight: quantized by its row's scale, then multiplied by it. -/
theorem w_entry (W : WArr) (n k : Fin 4096) :
    val_main_v12 (F := Ideal) W (ix2 n k) = q (W (ix2 n k)) (ws W n) * ws W n := by
  rw [val_main_v12_apply, val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply, val_main_v11_apply, sidx7_eq, sidx11_eq]
  rfl

/-- The bias term of entry (a, s, n) is the bias of column n. -/
theorem b_entry (b : BArr) (a : Fin 4) (s : Fin 2048) (n : Fin 4096) :
    val_main_v24 (F := Ideal) b (ix3 a s n) = b (ix1 n) := by
  rw [val_main_v24_apply, val_main_v23_apply, bidx_eq]

/-! ## The last stage -/

/-- The reference's last stage is the scale-first array. -/
theorem ref_eq (x : XArr) (W : WArr) (b : BArr) :
    Cert.ReferenceIdeal.Read.val_main_v25 (F := Ideal) x W b = scaleFirst x W b := by
  funext i
  obtain ⟨a, s, n, rfl⟩ : ∃ (a : Fin 4) (s : Fin 2048) (n : Fin 4096), i = ix3 a s n := ⟨i 0, i 1, i 2, eq_ix3 i⟩
  rw [scaleFirst_apply, val_main_v25_apply, val_main_v22_apply, b_entry, Ideal.addf_def]
  congr 1
  exact Finset.sum_congr rfl fun k _ => by rw [lidx_eq, ridx_eq, x_entry, w_entry]

end Cert.Proof.RefSide

end
-- ==== Proof.Finite.lean ====
/-
  Under the precondition (every input entry finite) the two scales are real numbers.

  The precondition says |x| < +∞, |W| < +∞ and |b| < +∞ at every entry, each as a conjunction over all entries. An
  extended real y with max y (-y) < +∞ is neither +∞ nor -∞, so every entry of x and of W is a real number.

  A scale is built from such entries by four operations, and each keeps real numbers real:
    * the absolute value max y (-y) of a real is one of the two reals y, -y;
    * the maximum, started from -∞, over a NONEMPTY finite family of reals lies strictly between -∞ (one member is
      above it) and +∞ (-∞ and every member are below it), so it is real; a row of W has 4096 entries and x has an
      entry, so both families are nonempty;
    * a real divided by the real 127 ≠ 0 is the real product with 1 / 127;
    * the maximum of two reals is one of the two.
-/
import proofs.«150163_j41394894798994_1_alg».proof.Proof.Spec
import proofs.«150163_j41394894798994_1_alg».proof.Proof.Gen.Pre_finite_inputs
import Idealize.ShloMosaic.Lib.ReduceAll
import Mathlib.Data.EReal.Operations
import Mathlib.Data.Finset.Fold

noncomputable section

namespace Cert.Proof.Finite

open Idealize.ShloMosaic Idealize.ShloMosaic.ValueIdx Cert.Proof.Quant Cert.Proof.Spec

/-! ## Real numbers among the extended reals -/

/-- An extended real that is neither infinity is a real number. -/
theorem real_of_ne {y : EReal} (h1 : y ≠ ⊤) (h2 : y ≠ ⊥) : ∃ r : ℝ, y = (r : EReal) :=
  ⟨_, (EReal.coe_toReal h1 h2).symm⟩

/-- If |y| = max y (-y) is below +∞ then y is a real number: at y = ±∞ the maximum is +∞. -/
theorem real_of_abs_lt_top (y : EReal) (h : max y (-y) < ⊤) : ∃ r : ℝ, y = (r : EReal) := by
  induction y using EReal.rec with
  | bot => simp at h
  | coe r => exact ⟨r, rfl⟩
  | top => simp at h

/-- The maximum of two reals is one of them, so it is real. -/
theorem max_real {y z : EReal} (hy : ∃ r : ℝ, y = (r : EReal)) (hz : ∃ r : ℝ, z = (r : EReal)) :
    ∃ r : ℝ, max y z = (r : EReal) := by
  rcases max_choice y z with h | h <;> rw [h] <;> assumption

/-- The maximum from -∞ over a nonempty finite family of reals is real: it is above -∞ because one member is, and
    below +∞ because -∞ and every member are. -/
theorem fold_max_real {ι : Type*} (s : Finset ι) (hs : s.Nonempty) (f : ι → EReal)
    (hf : ∀ i ∈ s, ∃ r : ℝ, f i = (r : EReal)) : ∃ r : ℝ, s.fold max ⊥ f = (r : EReal) := by
  have h1 : s.fold max ⊥ f < ⊤ :=
    (Finset.fold_max_lt _).2 ⟨bot_lt_top, fun i hi => by obtain ⟨r, hr⟩ := hf i hi; rw [hr]; exact EReal.coe_lt_top r⟩
  have h2 : ⊥ < s.fold max ⊥ f := by
    obtain ⟨i, hi⟩ := hs
    obtain ⟨r, hr⟩ := hf i hi
    exact (Finset.lt_fold_max _).2 (Or.inr ⟨i, hi, by rw [hr]; exact EReal.bot_lt_coe r⟩)
  exact real_of_ne h1.ne h2.ne'

/-! ## The constants -/

/-- The pattern the precondition compares against denotes +∞. -/
theorem inf_eq : Ideal.ofBits .f32 0x7F800000#32 = (⊤ : EReal) := by
  simp [Ideal.ofBits, Ideal.ieee]

/-- The pattern both maxima start from denotes -∞. -/
theorem ninf_eq : Ideal.ofBits .f32 0xFF800000#32 = (⊥ : EReal) := by
  simp [Ideal.ofBits, Ideal.ieee]

/-- The lower bound of a weight scale (the float nearest 1e-5) is a real number. -/
theorem eps_real : ∃ r : ℝ, Ideal.ofBits .f32 0x3727C5AC#32 = (r : EReal) := by
  simp [Ideal.ofBits, Ideal.ieee, -EReal.coe_mul]

/-! ## The operations of a scale keep reals real -/

/-- The absolute value of a real is real. -/
theorem abs_real {y : EReal} (h : ∃ r : ℝ, y = (r : EReal)) :
    ∃ r : ℝ, FloatOps.hostAbsf (F := Ideal) (φ := .f32) y = (r : EReal) := by
  obtain ⟨r, rfl⟩ := h
  rw [Ideal.hostAbsf_def, Ideal.absf_def]
  exact max_real ⟨r, rfl⟩ ⟨-r, (EReal.coe_neg r).symm⟩

/-- A real divided by 127 is real: the product with 1 / 127. -/
theorem div127_real {y : EReal} (h : ∃ r : ℝ, y = (r : EReal)) :
    ∃ r : ℝ, FloatOps.hostDivf (F := Ideal) (φ := .f32) y (FloatOps.ofBits .f32 0x42FE0000#32) = (r : EReal) := by
  obtain ⟨r, rfl⟩ := h
  rw [Ideal.hostDivf_def, Ideal.ofBits_def, hi_eq, Ideal.div_coe (by norm_num), ← EReal.coe_mul]
  exact ⟨_, rfl⟩

/-- The maximum from the pattern of -∞ over a nonempty finite family of reals is real. -/
theorem fold_maximumf_real {ι : Type*} (s : Finset ι) (hs : s.Nonempty) (f : ι → Ideal .f32)
    (hf : ∀ i ∈ s, ∃ r : ℝ, f i = (r : EReal)) :
    ∃ r : ℝ, s.fold (FloatOps.maximumf (F := Ideal) (φ := .f32)) (FloatOps.ofBits .f32 0xFF800000#32) f
      = (r : EReal) := by
  rw [Ideal.ofBits_def, ninf_eq]
  exact fold_max_real s hs f hf

/-! ## Every entry of x and of W is real -/

/-- One entry's test |y| < +∞ came out true, so y is real. -/
theorem real_of_olt_inf (y : EReal)
    (h : FloatOps.cmpf (F := Ideal) .olt (FloatOps.hostAbsf (F := Ideal) (φ := .f32) y)
      (FloatOps.ofBits (F := Ideal) .f32 0x7F800000#32) = 1#1) :
    ∃ r : ℝ, y = (r : EReal) := by
  rw [Ideal.cmpf_def, Ideal.hostAbsf_def, Ideal.absf_def, Ideal.ofBits_def, inf_eq] at h
  refine real_of_abs_lt_top y ?_
  by_contra hn
  simp [Ideal.cmp, hn] at h

/-- The shape with no axes has one index. -/
instance : Subsingleton (⟨0, ![]⟩ : Shape).Idx := ⟨fun a b => funext fun d => d.elim0⟩

/-- The precondition is the conjunction of three conjunctions over all entries; the first two say that every entry of
    x and every entry of W passes the test |y| < +∞. -/
theorem entries_real (x : XArr) (W : WArr) (b : BArr)
    (h : Cert.Pre_finite_inputs.fn (F := Ideal) x W b = fun _ => 1#1) :
    (∀ i, ∃ r : ℝ, x i = (r : EReal)) ∧ ∀ i, ∃ r : ℝ, W i = (r : EReal) := by
  have h0 := congrFun h ValueIdx.ix0
  dsimp only [Cert.Pre_finite_inputs.fn] at h0
  obtain ⟨h12, -⟩ := IntOp.andi_eq_one.1 h0
  obtain ⟨h1, h2⟩ := IntOp.andi_eq_one.1 h12
  exact ⟨fun i => real_of_olt_inf (x i) (Host.reduce_andi_all _ _ _ _ _ h1 i),
    fun i => real_of_olt_inf (W i) (Host.reduce_andi_all _ _ _ _ _ h2 i)⟩

/-! ## The two maxima -/

open Cert.ReferenceIdeal Cert.ReferenceIdeal.Read in
/-- The maximum of |W| over a row is real: the row's 4096 entries are a nonempty family of reals. -/
theorem rowmax_real (W : WArr) (hW : ∀ i, ∃ r : ℝ, W i = (r : EReal)) (j : Cert.ReferenceIdeal.S4096.Idx) :
    ∃ r : ℝ, val_main_v1 (F := Ideal) W j = (r : EReal) := by
  unfold val_main_v1
  rw [Host.reduce_eq_fold_single (f := FloatOps.maximumf (F := Ideal) (φ := .f32))
    (h := (by decide : Cert.ReferenceIdeal.S4096x4096.Reduces [1] Cert.ReferenceIdeal.S4096))]
  refine fold_maximumf_real _ ?_ _ (fun k _ => abs_real (hW _))
  exact ⟨⟨0, by decide⟩, Finset.mem_univ _⟩

open Cert.ReferenceIdeal Cert.ReferenceIdeal.Read in
/-- The maximum of |x| over the whole tensor is real: every entry goes into the one result, and there is an entry. -/
theorem allmax_real (x : XArr) (hx : ∀ i, ∃ r : ℝ, x i = (r : EReal)) (j : Cert.ReferenceIdeal.S_.Idx) :
    ∃ r : ℝ, val_main_v14 (F := Ideal) x j = (r : EReal) := by
  unfold val_main_v14
  rw [Host.reduce_eq_fold]
  refine fold_maximumf_real _ ?_ _ (fun i _ => abs_real (hx i))
  exact ⟨ix3 (0 : Fin 4) (0 : Fin 2048) (0 : Fin 4096),
    Finset.mem_filter.2 ⟨Finset.mem_univ _, Subsingleton.elim _ _⟩⟩

/-! ## The scales -/

open Cert.ReferenceIdeal Cert.ReferenceIdeal.Read in
/-- If the precondition's predicate is all ones on (x, W, b), the activation scale and every row's weight scale are real. -/
theorem scales_real (x : XArr) (W : WArr) (b : BArr)
    (h : Cert.Pre_finite_inputs.fn (F := Ideal) x W b = fun _ => 1#1) :
    (∃ r : ℝ, xs x = (r : EReal)) ∧ ∀ n, ∃ r : ℝ, ws W n = (r : EReal) := by
  obtain ⟨hx, hW⟩ := entries_real x W b h
  refine ⟨?_, fun n => ?_⟩
  · -- (max |x|) / 127
    unfold xs
    rw [val_main_v15_apply, val_main_cst_5_apply]
    exact div127_real (allmax_real x hx _)
  · -- max ((max over the row of |W|) / 127) (the lower bound)
    unfold ws
    rw [val_main_v6_apply, val_main_v4_apply, val_main_v2_apply, val_main_v3_apply, val_main_cst_0_apply,
      val_main_v5_apply, val_main_cst_1_apply, Ideal.maximumf_def, Ideal.ofBits_def (φ := .f32) 0x3727C5AC#32]
    exact max_real (div127_real (rowmax_real W hW _)) eps_real

end Cert.Proof.Finite

end
-- ==== Proof.lean ====
/-
  A quantized linear layer: the kernel against its reference, over the extended reals.

  Both programs quantize the activations x[a, s, k] by one scale xs = (max |x|) / 127 and the weights W[n, k] by a scale
  per row, ws n = max((max_k |W[n, k]|) / 127, 1e-5): divide, round to the nearest integer (ties to even), clip to
  [-128, 127]. The reference scales the quantized entries back and contracts, out = Σ_k (xq · xs)(wq · ws n) + b[n].
  The kernel contracts the quantized entries, 1024 columns at a time into an accumulator it resets at the first of
  the four steps, and scales once at the end, out = ((Σ_k xq · wq) · xs) · ws n + b[n].

  The two agree because every factor is a real number: a clipped value always is, and under the precondition (all
  inputs finite) so are the scales, so the scaling distributes over the sum; the four partial sums add up to the whole
  sum by associativity alone. The bias is added to equal things and needs nothing.

  The modules: Quant (the quantizer, the distributive law, the four-block running total), Spec (the two closed forms),
  RefSide (the reference is the scale-first form), Finite (the scales are real), Payload / KPieces / KHost / KBlocks /
  KInv / KFinal (the kernel program ends with the sum-first form in its result array).
-/
import proofs.«150163_j41394894798994_1_alg».proof.Defs
import proofs.«150163_j41394894798994_1_alg».proof.Proof.Gen.Kernel
import proofs.«150163_j41394894798994_1_alg».proof.Proof.Gen.Kernel.Skeleton
import proofs.«150163_j41394894798994_1_alg».proof.Proof.Gen.Kernel.Launch
import proofs.«150163_j41394894798994_1_alg».proof.Proof.Gen.Kernel.Points
import proofs.«150163_j41394894798994_1_alg».proof.Proof.Gen.Kernel.Frame
import proofs.«150163_j41394894798994_1_alg».proof.Proof.Gen.KernelIdeal
import proofs.«150163_j41394894798994_1_alg».proof.Proof.Gen.KernelIdeal.Skeleton
import proofs.«150163_j41394894798994_1_alg».proof.Proof.Gen.KernelIdeal.Launch
import proofs.«150163_j41394894798994_1_alg».proof.Proof.Gen.KernelIdeal.Points
import proofs.«150163_j41394894798994_1_alg».proof.Proof.Gen.KernelIdeal.Frame
import proofs.«150163_j41394894798994_1_alg».proof.Proof.Gen.ReferenceIdeal
import proofs.«150163_j41394894798994_1_alg».proof.Proof.Gen.Pre_finite_inputs
import proofs.«150163_j41394894798994_1_alg».proof.Proof.Gen.ReferenceIdeal.Run
import proofs.«150163_j41394894798994_1_alg».proof.Proof.Gen.ReferenceIdeal.Read
import proofs.«150163_j41394894798994_1_alg».proof.Proof.KFinal
import proofs.«150163_j41394894798994_1_alg».proof.Proof.RefSide
import proofs.«150163_j41394894798994_1_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends with the sum-first array, the reference with the scale-first array of arguments that agree; with
    real scales the two are one array. -/
theorem algebraic : Cert.algebraic_KernelIdeal_ReferenceIdeal := by
  intro m ρ m' ρ' hpre hagree
  refine ⟨fun c => Cert.Proof.Spec.sumFirst (Cert.Proof.KHost.xin m c) (Cert.Proof.KHost.win m c) (Cert.Proof.KHost.bin m c),
    Cert.Proof.KFinal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  have hreal := Cert.Proof.Finite.scales_real _ _ _ (hpre c)
  exact (Cert.ReferenceIdeal.Read.val_main_v25_eq _ _ _).trans
    ((Cert.Proof.RefSide.ref_eq _ _ _).trans
      (Cert.Proof.Spec.sumFirst_eq_scaleFirst _ _ _ hreal.1 hreal.2).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
